-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000 : Shape := ⟨1, ![10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : IVec S10000 1) (main_arg3 : FVec F S128x128 .f32) (main_arg4 : FVec F S128 .f32) (main_arg5 : FVec F S128x128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S10000x128 : Shape := ⟨2, ![10000, 128]⟩
abbrev S10000x10000 : Shape := ⟨2, ![10000, 10000]⟩
abbrev S10000 : Shape := ⟨1, ![10000]⟩
abbrev S128x128 : Shape := ⟨2, ![128, 128]⟩
abbrev S128 : Shape := ⟨1, ![128]⟩
abbrev S10000x1 : Shape := ⟨2, ![10000, 1]⟩
abbrev S1x128 : Shape := ⟨2, ![1, 128]⟩
abbrev S400x10000 : Shape := ⟨2, ![400, 10000]⟩
abbrev S400x1 : Shape := ⟨2, ![400, 1]⟩
abbrev S400x128 : Shape := ⟨2, ![400, 128]⟩

abbrev nBuf : Space → Nat
  | .hbm => 13
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000, .f32⟩
  | .hbm, ⟨8, _⟩ => ⟨S10000x1, .f32⟩
  | .hbm, ⟨9, _⟩ => ⟨S1x128, .f32⟩
  | .hbm, ⟨10, _⟩ => ⟨S10000x128, .f32⟩
  | .hbm, ⟨11, _⟩ => ⟨S1x128, .f32⟩
  | .hbm, ⟨12, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x1, .f32⟩
  | .local _ .vmem, ⟨6, _⟩ => ⟨S400x1, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S400x1, .f32⟩
  | .local _ .vmem, ⟨15, _⟩ => ⟨S400x1, .f32⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S10000_S10000x1_0 : S10000.BroadcastsInDim S10000x1 (![0] : Fin 1 → Fin S10000x1.rank)
  bcast_S128_S1x128_1 : S128.BroadcastsInDim S1x128 (![1] : Fin 1 → Fin S1x128.rank)
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1.size a ≤ S10000x1.size a
  hwx0_4 : ∀ i : grid0.Coords, EltTy.bits .f32 = 32 ∨ (Rect.block (s := S10000x1) S400x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x1.size a ≤ S10000x1.size a
  hwx1_4 : ∀ i : grid1.Coords, EltTy.bits .f32 = 32 ∨ (Rect.block (s := S10000x1) S400x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S400x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000 : Shape := ⟨1, ![10000]⟩
abbrev S128x128 : Shape := ⟨2, ![128, 128]⟩
abbrev S128 : Shape := ⟨1, ![128]⟩
abbrev S10000x1 : Shape := ⟨2, ![10000, 1]⟩
abbrev S1x128 : Shape := ⟨2, ![1, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000, .f32⟩
  | .hbm, ⟨8, _⟩ => ⟨S10000x1, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.GraphLayer.lean ====
/-
  One dense graph-convolution layer followed by a rectifier, as ONE function of whole arrays, read index by index
  on the extended reals. For an adjacency array A : [10000, 10000], node features X : [10000, 128], a weight
  W : [128, 128], a bias row b : [1, 128] and a node mask column μ : [10000, 1],

      layer A X W b μ [p, q]  =  max ( ( Σ_j (Σ_k A[p,k] · X[k,j]) · W[j,q]  +  b[0,q] ) · μ[p,0] ,  0 ).

  The inner sum aggregates the neighbours' features (row p of A against column j of X), the outer one is the linear
  transform; the grouping is the one both programs use (aggregate first, then transform), so no sum is rearranged
  anywhere and nothing here needs the entries to be finite.
-/
import Idealize.ShloMosaic.PureOps.Ideal
import Idealize.ShloMosaic.Lib.ValueIdx

noncomputable section

open scoped BigOperators

namespace Cert.GraphLayer

open Idealize.ShloMosaic Idealize.ShloMosaic.ValueIdx

/-- The shapes of a layer's five operands and of its result. -/
abbrev SAdj : Shape := ⟨2, ![10000, 10000]⟩
abbrev SFeat : Shape := ⟨2, ![10000, 128]⟩
abbrev SWeight : Shape := ⟨2, ![128, 128]⟩
abbrev SRow : Shape := ⟨2, ![1, 128]⟩
abbrev SCol : Shape := ⟨2, ![10000, 1]⟩

/-- Neighbour aggregation at node `p`, feature `j`: row `p` of the adjacency against column `j` of the features. -/
def agg (A : SAdj.Idx → EReal) (X : SFeat.Idx → EReal) (p : Fin 10000) (j : Fin 128) : EReal :=
  ∑ k : Fin 10000, A (ix2 p k) * X (ix2 k j)

/-- The layer's value at node `p`, output feature `q`. -/
def layerAt (A : SAdj.Idx → EReal) (X : SFeat.Idx → EReal) (W : SWeight.Idx → EReal) (b : SRow.Idx → EReal)
    (μ : SCol.Idx → EReal) (p : Fin 10000) (q : Fin 128) : EReal :=
  max (((∑ j : Fin 128, agg A X p j * W (ix2 j q)) + b (ix2 0 q)) * μ (ix2 p 0)) 0

/-- The layer as a whole array. -/
def layer (A : SAdj.Idx → EReal) (X : SFeat.Idx → EReal) (W : SWeight.Idx → EReal) (b : SRow.Idx → EReal)
    (μ : SCol.Idx → EReal) : SFeat.Idx → EReal :=
  fun i => layerAt A X W b μ (i 0) (i 1)

theorem layer_ix2 (A : SAdj.Idx → EReal) (X : SFeat.Idx → EReal) (W : SWeight.Idx → EReal) (b : SRow.Idx → EReal)
    (μ : SCol.Idx → EReal) (p : Fin 10000) (q : Fin 128) :
    layer A X W b μ (ix2 p q) = layerAt A X W b μ p q := rfl

end Cert.GraphLayer

end
-- ==== Proof.LibBroadcastColumn.lean ====
/-
  A column spread over columns, read at an entry: for any extents `a`, `b` and any element type, an `[a, 1]` array
  broadcast to `[a, b]` holds, at row `p` and column `c`, the column's entry `p`. (The row form, `[1, b]` to
  `[a, b]`, is the library's `broadcastTo_1b_ab_apply`.)
-/
import Idealize.ShloMosaic.Lib.ValueIdx
import Idealize.ShloMosaic.Lib.Pipeline.Value

namespace Cert.LibBroadcastColumn

open Idealize.ShloMosaic Idealize.ShloMosaic.ValueIdx

/-- An `[a, 1]` column broadcast to `[a, b]` reads, at `(p, c)`, the column's entry `p`: the broadcast keeps an
    operand axis of extent one at coordinate 0 and every other axis at the result's coordinate, and when `a` itself is
    one the only row index is 0 either way. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibBroadcastColumn
-- ==== Proof.BlockValue.lean ====
/-
  What one grid point's body stores, read at an entry of its [400, 128] output block, on the extended reals.

  The body multiplies its [400, 10000] stripe of the adjacency by the whole [10000, 128] feature array (both first
  narrowed to bf16, which changes nothing over the extended reals), multiplies the result by the [128, 128] weight, adds
  the bias row to every row, scales row r by the mask column's entry r, and takes the maximum with zero. Both products
  accumulate from zero, so each is the plain sum over the contracted axis; read at (r, q) the stored value is

      max ( ( Σ_j (Σ_k a[r,k] · x[k,j]) · w[j,q]  +  b[0,q] ) · μ[r,0] ,  0 ).

  The second launch's body differs only by a shape cast of the features to their own shape, which is the identity.
-/
import proofs.«143548_g79293686219349_cont_9to1_m_1102_3_alg».proof.Proof.Gen.KernelIdeal.Skeleton
import proofs.«143548_g79293686219349_cont_9to1_m_1102_3_alg».proof.Proof.LibBroadcastColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Cert.LibBroadcastColumn Idealize.ShloMosaic Idealize.ShloMosaic.ValueIdx

/-! ## The two products at an entry -/

theorem lhs_aggregate_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_aggregate_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_aggregate_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_aggregate_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Into the zero accumulator, the product read at row `p`, column `q` is the sum over the contracted axis of the
    left operand's row `p` against the right operand's column `q`. -/
theorem aggregate_apply {φ₁ φ₂ : FTy} (l : FVec Ideal S400x10000 φ₁) (r : FVec Ideal S10000x128 φ₂) (p : Fin 400) (q : Fin 128) :
    matmul dot_S400x10000_S10000x128_S400x128_1_0_0_1_n_n none l r (constant S400x128 .f32 0x00000000#32) (ix2 p q)
      = ∑ k : Fin 10000, l (ix2 p k) * r (ix2 k q) := by
  refine (Ideal.matmul_constant_zero_apply dot_S400x10000_S10000x128_S400x128_1_0_0_1_n_n none l r (ix2 p q)).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs_aggregate_0 _ _
    | ⟨1, _⟩ => exact (lhs_aggregate_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhs_aggregate_0 _ _).trans hk
    | ⟨1, _⟩ => exact rhs_aggregate_1 _ _)
  rw [el, er]

theorem lhs_transform_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_transform_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_transform_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_transform_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Into the zero accumulator, the product read at row `p`, column `q` is the sum over the contracted axis of the
    left operand's row `p` against the right operand's column `q`. -/
theorem transform_apply {φ₁ φ₂ : FTy} (l : FVec Ideal S400x128 φ₁) (r : FVec Ideal S128x128 φ₂) (p : Fin 400) (q : Fin 128) :
    matmul dot_S400x128_S128x128_S400x128_1_0_0_1_n_n none l r (constant S400x128 .f32 0x00000000#32) (ix2 p q)
      = ∑ k : Fin 128, l (ix2 p k) * r (ix2 k q) := by
  refine (Ideal.matmul_constant_zero_apply dot_S400x128_S128x128_S400x128_1_0_0_1_n_n none l r (ix2 p q)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhs_transform_0 _ _
    | ⟨1, _⟩ => exact (lhs_transform_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhs_transform_0 _ _).trans hk
    | ⟨1, _⟩ => exact rhs_transform_1 _ _)
  rw [el, er]

/-! ## The stored value at an entry -/

/-- The value a grid point stores at row `r`, column `q` of its block, from the blocks it loaded. -/
def blockAt (a : Vec Ideal S400x10000 .f32) (x : Vec Ideal S10000x128 .f32) (w : Vec Ideal S128x128 .f32)
    (b : Vec Ideal S1x128 .f32) (μ : Vec Ideal S400x1 .f32) (r : Fin 400) (q : Fin 128) : EReal :=
  max (((∑ j : Fin 128, (∑ k : Fin 10000, a (ix2 r k) * x (ix2 k j)) * w (ix2 j q)) + b (ix2 (0 : Fin 1) q)) * μ (ix2 r (0 : Fin 1))) 0

/-- The first launch's body. -/
theorem pay0_apply (a : Vec Ideal S400x10000 .f32) (x : Vec Ideal S10000x128 .f32) (w : Vec Ideal S128x128 .f32)
    (b : Vec Ideal S1x128 .f32) (μ : Vec Ideal S400x1 .f32) (r : Fin 400) (q : Fin 128) :
    k0_pay1 (F := Ideal) a x w b μ (ix2 r q) = blockAt a x w b μ r q := by
  unfold k0_pay1 blockAt
  rw [maximumf_apply, mulf_apply, addf_apply, broadcast_apply, transform_apply,
    shapeCast_self, shapeCast_self, broadcastTo_1b_ab_apply, broadcastTo_a1_ab_apply]
  simp only [aggregate_apply, truncf_apply]
  rw [show (Scalar.ofBits (F := Ideal) .f32 0x00000000#32 : EReal) = 0 from Ideal.ofBits_zero_f32]

/-- The second launch's body: the same, through an identity shape cast of the features. -/
theorem pay1_apply (a : Vec Ideal S400x10000 .f32) (x : Vec Ideal S10000x128 .f32) (w : Vec Ideal S128x128 .f32)
    (b : Vec Ideal S1x128 .f32) (μ : Vec Ideal S400x1 .f32) (r : Fin 400) (q : Fin 128) :
    k1_pay1 (F := Ideal) a x w b μ (ix2 r q) = blockAt a x w b μ r q := by
  unfold k1_pay1 blockAt
  rw [maximumf_apply, mulf_apply, addf_apply, broadcast_apply, transform_apply,
    shapeCast_self, shapeCast_self, shapeCast_self, broadcastTo_1b_ab_apply, broadcastTo_a1_ab_apply]
  simp only [aggregate_apply, truncf_apply]
  rw [show (Scalar.ofBits (F := Ideal) .f32 0x00000000#32 : EReal) = 0 from Ideal.ofBits_zero_f32]

end Cert.KernelIdeal.Block

end
-- ==== Proof.RegionValue.lean ====
/-
  What each launch leaves in its output array, as one function of the arrays the launch finds on entry.

  A launch runs 25 grid points. Point t loads rows 400 t … 400 t + 399 of the adjacency and of the mask column, the
  whole feature array, weight and bias row, and writes back rows 400 t … 400 t + 399 of the output. By the body's value
  at an entry (row r of the block is row 400 t + r of the arrays), what point t writes back is block t of ONE
  whole-array function, the layer of the entry arrays; the 25 row blocks tile the 10000 rows, so after the last point
  the output array IS that layer. Nothing here depends on what the entry arrays are, so it is stated at any entry
  contents and used twice.
-/
import proofs.«143548_g79293686219349_cont_9to1_m_1102_3_alg».proof.Proof.Gen.KernelIdeal.Frame
import proofs.«143548_g79293686219349_cont_9to1_m_1102_3_alg».proof.Proof.BlockValue
import proofs.«143548_g79293686219349_cont_9to1_m_1102_3_alg».proof.Proof.GraphLayer
import Idealize.ShloMosaic.Lib.Pipeline.Value
import Idealize.ShloMosaic.Lib.ValueIdx

set_option maxRecDepth 16384

noncomputable section

open scoped BigOperators

namespace Cert.KernelIdeal.Region

open Cert.KernelIdeal Cert.KernelIdeal.Gen Cert.KernelIdeal.Block Cert.GraphLayer
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row `r` of the block of grid point `t` is row `400 t + r` of the arrays. -/
def rowOf (t : Fin 25) (r : Fin 400) : Fin 10000 := ⟨400 * t.val + r.val, by have := t.isLt; have := r.isLt; omega⟩

/-- A block's stored value is the layer's value at the block's row, once each loaded block is read as the rows of the
    array it was fetched from. -/
theorem blockAt_eq_layerAt (a : Vec Ideal S400x10000 .f32) (x : Vec Ideal S10000x128 .f32) (w : Vec Ideal S128x128 .f32)
    (b : Vec Ideal S1x128 .f32) (μ : Vec Ideal S400x1 .f32)
    (A : SAdj.Idx → EReal) (X : SFeat.Idx → EReal) (W : SWeight.Idx → EReal) (B : SRow.Idx → EReal) (M : SCol.Idx → EReal)
    (r : Fin 400) (q : Fin 128) (p : Fin 10000)
    (ha : ∀ k : Fin 10000, a (ix2 r k) = A (ix2 p k)) (hx : ∀ (k : Fin 10000) (j : Fin 128), x (ix2 k j) = X (ix2 k j))
    (hw : ∀ (j q' : Fin 128), w (ix2 j q') = W (ix2 j q')) (hb : ∀ q' : Fin 128, b (ix2 (0 : Fin 1) q') = B (ix2 (0 : Fin 1) q'))
    (hμ : μ (ix2 r (0 : Fin 1)) = M (ix2 p (0 : Fin 1))) :
    blockAt a x w b μ r q = layerAt A X W B M p q := by
  unfold blockAt layerAt agg
  simp only [ha, hx, hw, hb, hμ]

variable (V : (c : Dev nD) → (b : Ref sig .tc) → Buf (Elt Ideal) ((c : Thread nD τ).loc b))

/-! ## Launch 0 -/

/-- The printed block-index maps over the grid: the adjacency stripe, the mask column and the output move with the
    grid point along the rows; the features, the weight and the bias row stay at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The adjacency stripe at point `t` is rows `400 t … 400 t + 399` of the adjacency. -/
theorem adj_blk0 (c : Dev nD) (t : Fin cfg0.N) (r : Fin 400) (k : Fin 10000) :
    iblk0 V c 0 t (ix2 r k) = (V c main_arg1 : SAdj.Idx → EReal) (ix2 (rowOf (t.cast N_0) r) k) := by
  obtain ⟨e00, e01, -⟩ := idx0 t
  unfold iblk0
  rw [View.read_apply]
  show V c main_arg1 _ = V c main_arg1 _
  refine congrArg _ (funext fun a => Fin.ext ?_)
  match a with
  | ⟨0, _⟩ => show win0_0.index t (0 : Fin 2) * 400 + 1 * r.val = 400 * t.val + r.val; rw [e00]; omega
  | ⟨1, _⟩ => show win0_0.index t (1 : Fin 2) * 10000 + 1 * k.val = k.val; rw [e01]; omega

/-- The feature window is the whole feature array at every point. -/
theorem feat_blk0 (c : Dev nD) (t : Fin cfg0.N) (k : Fin 10000) (j : Fin 128) :
    iblk0 V c 1 t (ix2 k j) = (V c main_arg0 : SFeat.Idx → EReal) (ix2 k j) := by
  obtain ⟨-, -, e10, e11, -⟩ := idx0 t
  unfold iblk0
  rw [View.read_apply]
  show V c main_arg0 _ = V c main_arg0 _
  refine congrArg _ (funext fun a => Fin.ext ?_)
  match a with
  | ⟨0, _⟩ => show win0_1.index t (0 : Fin 2) * 10000 + 1 * k.val = k.val; rw [e10]; omega
  | ⟨1, _⟩ => show win0_1.index t (1 : Fin 2) * 128 + 1 * j.val = j.val; rw [e11]; omega

/-- The weight window is the whole weight at every point. -/
theorem weight_blk0 (c : Dev nD) (t : Fin cfg0.N) (j : Fin 128) (q : Fin 128) :
    iblk0 V c 2 t (ix2 j q) = (V c main_arg3 : SWeight.Idx → EReal) (ix2 j q) := by
  obtain ⟨-, -, -, -, e20, e21, -⟩ := idx0 t
  unfold iblk0
  rw [View.read_apply]
  show V c main_arg3 _ = V c main_arg3 _
  refine congrArg _ (funext fun a => Fin.ext ?_)
  match a with
  | ⟨0, _⟩ => show win0_2.index t (0 : Fin 2) * 128 + 1 * j.val = j.val; rw [e20]; omega
  | ⟨1, _⟩ => show win0_2.index t (1 : Fin 2) * 128 + 1 * q.val = q.val; rw [e21]; omega

/-- The bias window is the whole bias row at every point. -/
theorem bias_blk0 (c : Dev nD) (t : Fin cfg0.N) (q : Fin 128) :
    iblk0 V c 3 t (ix2 (0 : Fin 1) q) = (V c main_v2 : SRow.Idx → EReal) (ix2 (0 : Fin 1) q) := by
  obtain ⟨-, -, -, -, -, -, e30, e31, -⟩ := idx0 t
  unfold iblk0
  rw [View.read_apply]
  show V c main_v2 _ = V c main_v2 _
  refine congrArg _ (funext fun a => Fin.ext ?_)
  match a with
  | ⟨0, _⟩ => show win0_3.index t (0 : Fin 2) * 1 + 1 * 0 = 0; rw [e30]
  | ⟨1, _⟩ => show win0_3.index t (1 : Fin 2) * 128 + 1 * q.val = q.val; rw [e31]; omega

/-- The mask window at point `t` is entries `400 t … 400 t + 399` of the mask column. -/
theorem mask_blk0 (c : Dev nD) (t : Fin cfg0.N) (r : Fin 400) :
    iblk0 V c 4 t (ix2 r (0 : Fin 1)) = (V c main_v1 : SCol.Idx → EReal) (ix2 (rowOf (t.cast N_0) r) (0 : Fin 1)) := by
  obtain ⟨-, -, -, -, -, -, -, -, e40, e41, -⟩ := idx0 t
  unfold iblk0
  rw [View.read_apply]
  show V c main_v1 _ = V c main_v1 _
  refine congrArg _ (funext fun a => Fin.ext ?_)
  match a with
  | ⟨0, _⟩ => show win0_4.index t (0 : Fin 2) * 400 + 1 * r.val = 400 * t.val + r.val; rw [e40]; omega
  | ⟨1, _⟩ => show win0_4.index t (1 : Fin 2) * 1 + 1 * 0 = 0; rw [e41]

/-- WHAT POINT `t` WRITES BACK is block `t` of the layer of the arrays as the launch finds them. -/
theorem flushed_eq0 (c : Dev nD) (t : Fin cfg0.N) :
    (dat0 V c).flushed 5 t = ((cfg0.win 5).blk t).view.read (Elt Ideal)
      (layer (V c main_arg1) (V c main_arg0) (V c main_arg3) (V c main_v2) (V c main_v1)) := by
  show (cfg0.win 5).cut (grid0.coords t) ((dat0 V c).after 5 t) = _
  rw [after0_5]
  unfold out0_5
  rw [View.canon_unit_zero hz]
  simp only [View.ld_unit_zero (S := S400x10000) hz, View.ld_unit_zero (S := S10000x128) hz,
    View.ld_unit_zero (S := S128x128) hz, View.ld_unit_zero (S := S1x128) hz, View.ld_unit_zero (S := S400x1) hz]
  funext j
  obtain ⟨r, q, rfl⟩ : ∃ (r : Fin 400) (q : Fin 128), j = ix2 r q := ⟨j 0, j 1, eq_ix2 j⟩
  rw [View.read_apply]
  have he : ((cfg0.win 5).blk t).view.emb (ix2 r q) = ix2 (rowOf (t.cast N_0) r) q := by
    obtain ⟨-, -, -, -, -, -, -, -, -, -, e50, e51⟩ := idx0 t
    refine funext fun a => Fin.ext ?_
    match a with
    | ⟨0, _⟩ => show win0_5.index t (0 : Fin 2) * 400 + 1 * r.val = 400 * t.val + r.val; rw [e50]; omega
    | ⟨1, _⟩ => show win0_5.index t (1 : Fin 2) * 128 + 1 * q.val = q.val; rw [e51]; omega
  rw [he, layer_ix2]
  refine (pay0_apply (iblk0 V c 0 t) (iblk0 V c 1 t) (iblk0 V c 2 t) (iblk0 V c 3 t) (iblk0 V c 4 t) r q).trans ?_
  exact blockAt_eq_layerAt _ _ _ _ _ _ _ _ _ _ r q (rowOf (t.cast N_0) r)
    (fun k => adj_blk0 V c t r k) (fun k j => feat_blk0 V c t k j) (fun j q' => weight_blk0 V c t j q')
    (fun q' => bias_blk0 V c t q') (mask_blk0 V c t r)

/-- Every row of the output lies in the block of the point its row index divided by 400 names. -/
theorem cover0 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ : ∃ t : Fin cfg0.N, t.val = (i 0).val / 400 :=
    ⟨⟨(i 0).val / 400, by rw [show cfg0.N = 25 from N_0]; omega⟩, rfl⟩
  obtain ⟨-, -, -, -, -, -, -, -, -, -, e50, e51⟩ := idx0 t
  refine ⟨t, flush0_5 t, ?_⟩
  show i ∈ ((View.whole main_v3).slice (win0_5.rect t)).set
  rw [View.set_slice_whole, Rect.mem_set_unit]
  intro a
  match a with
  | ⟨0, _⟩ =>
    show win0_5.index t (0 : Fin 2) * 400 ≤ (i 0).val ∧ (i 0).val < win0_5.index t (0 : Fin 2) * 400 + 400
    rw [e50, ht]; omega
  | ⟨1, _⟩ =>
    show win0_5.index t (1 : Fin 2) * 128 ≤ (i 1).val ∧ (i 1).val < win0_5.index t (1 : Fin 2) * 128 + 128
    rw [e51]; omega

/-- THE OUTPUT ARRAY after launch 0: one layer of the arrays as the launch finds them. -/
theorem final0 (c : Dev nD) :
    (dat0 V c).arrAt 5 cfg0.N = layer (V c main_arg1) (V c main_arg0) (V c main_arg3) (V c main_v2) (V c main_v1) :=
  (dat0 V c).arrAt_eq_of_cover 5 _ (fun t _ => flushed_eq0 V c t) cover0

/-! ## Launch 1 -/

/-- The printed block-index maps over the grid: the adjacency stripe, the mask column and the output move with the
    grid point along the rows; the features, the weight and the bias row stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The adjacency stripe at point `t` is rows `400 t … 400 t + 399` of the adjacency. -/
theorem adj_blk1 (c : Dev nD) (t : Fin cfg1.N) (r : Fin 400) (k : Fin 10000) :
    iblk1 V c 0 t (ix2 r k) = (V c main_arg1 : SAdj.Idx → EReal) (ix2 (rowOf (t.cast N_1) r) k) := by
  obtain ⟨e00, e01, -⟩ := idx1 t
  unfold iblk1
  rw [View.read_apply]
  show V c main_arg1 _ = V c main_arg1 _
  refine congrArg _ (funext fun a => Fin.ext ?_)
  match a with
  | ⟨0, _⟩ => show win1_0.index t (0 : Fin 2) * 400 + 1 * r.val = 400 * t.val + r.val; rw [e00]; omega
  | ⟨1, _⟩ => show win1_0.index t (1 : Fin 2) * 10000 + 1 * k.val = k.val; rw [e01]; omega

/-- The feature window is the whole feature array at every point. -/
theorem feat_blk1 (c : Dev nD) (t : Fin cfg1.N) (k : Fin 10000) (j : Fin 128) :
    iblk1 V c 1 t (ix2 k j) = (V c main_v3 : SFeat.Idx → EReal) (ix2 k j) := by
  obtain ⟨-, -, e10, e11, -⟩ := idx1 t
  unfold iblk1
  rw [View.read_apply]
  show V c main_v3 _ = V c main_v3 _
  refine congrArg _ (funext fun a => Fin.ext ?_)
  match a with
  | ⟨0, _⟩ => show win1_1.index t (0 : Fin 2) * 10000 + 1 * k.val = k.val; rw [e10]; omega
  | ⟨1, _⟩ => show win1_1.index t (1 : Fin 2) * 128 + 1 * j.val = j.val; rw [e11]; omega

/-- The weight window is the whole weight at every point. -/
theorem weight_blk1 (c : Dev nD) (t : Fin cfg1.N) (j : Fin 128) (q : Fin 128) :
    iblk1 V c 2 t (ix2 j q) = (V c main_arg5 : SWeight.Idx → EReal) (ix2 j q) := by
  obtain ⟨-, -, -, -, e20, e21, -⟩ := idx1 t
  unfold iblk1
  rw [View.read_apply]
  show V c main_arg5 _ = V c main_arg5 _
  refine congrArg _ (funext fun a => Fin.ext ?_)
  match a with
  | ⟨0, _⟩ => show win1_2.index t (0 : Fin 2) * 128 + 1 * j.val = j.val; rw [e20]; omega
  | ⟨1, _⟩ => show win1_2.index t (1 : Fin 2) * 128 + 1 * q.val = q.val; rw [e21]; omega

/-- The bias window is the whole bias row at every point. -/
theorem bias_blk1 (c : Dev nD) (t : Fin cfg1.N) (q : Fin 128) :
    iblk1 V c 3 t (ix2 (0 : Fin 1) q) = (V c main_v4 : SRow.Idx → EReal) (ix2 (0 : Fin 1) q) := by
  obtain ⟨-, -, -, -, -, -, e30, e31, -⟩ := idx1 t
  unfold iblk1
  rw [View.read_apply]
  show V c main_v4 _ = V c main_v4 _
  refine congrArg _ (funext fun a => Fin.ext ?_)
  match a with
  | ⟨0, _⟩ => show win1_3.index t (0 : Fin 2) * 1 + 1 * 0 = 0; rw [e30]
  | ⟨1, _⟩ => show win1_3.index t (1 : Fin 2) * 128 + 1 * q.val = q.val; rw [e31]; omega

/-- The mask window at point `t` is entries `400 t … 400 t + 399` of the mask column. -/
theorem mask_blk1 (c : Dev nD) (t : Fin cfg1.N) (r : Fin 400) :
    iblk1 V c 4 t (ix2 r (0 : Fin 1)) = (V c main_v1 : SCol.Idx → EReal) (ix2 (rowOf (t.cast N_1) r) (0 : Fin 1)) := by
  obtain ⟨-, -, -, -, -, -, -, -, e40, e41, -⟩ := idx1 t
  unfold iblk1
  rw [View.read_apply]
  show V c main_v1 _ = V c main_v1 _
  refine congrArg _ (funext fun a => Fin.ext ?_)
  match a with
  | ⟨0, _⟩ => show win1_4.index t (0 : Fin 2) * 400 + 1 * r.val = 400 * t.val + r.val; rw [e40]; omega
  | ⟨1, _⟩ => show win1_4.index t (1 : Fin 2) * 1 + 1 * 0 = 0; rw [e41]

/-- WHAT POINT `t` WRITES BACK is block `t` of the layer of the arrays as the launch finds them. -/
theorem flushed_eq1 (c : Dev nD) (t : Fin cfg1.N) :
    (dat1 V c).flushed 5 t = ((cfg1.win 5).blk t).view.read (Elt Ideal)
      (layer (V c main_arg1) (V c main_v3) (V c main_arg5) (V c main_v4) (V c main_v1)) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x128) hz,
    View.ld_unit_zero (S := S128x128) hz, View.ld_unit_zero (S := S1x128) hz, View.ld_unit_zero (S := S400x1) hz]
  funext j
  obtain ⟨r, q, rfl⟩ : ∃ (r : Fin 400) (q : Fin 128), j = ix2 r q := ⟨j 0, j 1, eq_ix2 j⟩
  rw [View.read_apply]
  have he : ((cfg1.win 5).blk t).view.emb (ix2 r q) = ix2 (rowOf (t.cast N_1) r) q := by
    obtain ⟨-, -, -, -, -, -, -, -, -, -, e50, e51⟩ := idx1 t
    refine funext fun a => Fin.ext ?_
    match a with
    | ⟨0, _⟩ => show win1_5.index t (0 : Fin 2) * 400 + 1 * r.val = 400 * t.val + r.val; rw [e50]; omega
    | ⟨1, _⟩ => show win1_5.index t (1 : Fin 2) * 128 + 1 * q.val = q.val; rw [e51]; omega
  rw [he, layer_ix2]
  refine (pay1_apply (iblk1 V c 0 t) (iblk1 V c 1 t) (iblk1 V c 2 t) (iblk1 V c 3 t) (iblk1 V c 4 t) r q).trans ?_
  exact blockAt_eq_layerAt _ _ _ _ _ _ _ _ _ _ r q (rowOf (t.cast N_1) r)
    (fun k => adj_blk1 V c t r k) (fun k j => feat_blk1 V c t k j) (fun j q' => weight_blk1 V c t j q')
    (fun q' => bias_blk1 V c t q') (mask_blk1 V c t r)

/-- Every row of the output lies in the block of the point its row index divided by 400 names. -/
theorem cover1 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, -, -, -, -, -, -, e50, e51⟩ := idx1 t
  refine ⟨t, flush1_5 t, ?_⟩
  show i ∈ ((View.whole main_v5).slice (win1_5.rect t)).set
  rw [View.set_slice_whole, Rect.mem_set_unit]
  intro a
  match a with
  | ⟨0, _⟩ =>
    show win1_5.index t (0 : Fin 2) * 400 ≤ (i 0).val ∧ (i 0).val < win1_5.index t (0 : Fin 2) * 400 + 400
    rw [e50, ht]; omega
  | ⟨1, _⟩ =>
    show win1_5.index t (1 : Fin 2) * 128 ≤ (i 1).val ∧ (i 1).val < win1_5.index t (1 : Fin 2) * 128 + 128
    rw [e51]; omega

/-- THE OUTPUT ARRAY after launch 1: one layer of the arrays as the launch finds them. -/
theorem final1 (c : Dev nD) :
    (dat1 V c).arrAt 5 cfg1.N = layer (V c main_arg1) (V c main_v3) (V c main_arg5) (V c main_v4) (V c main_v1) :=
  (dat1 V c).arrAt_eq_of_cover 5 _ (fun t _ => flushed_eq1 V c t) cover1

end Cert.KernelIdeal.Region

end
-- ==== Proof.ResultValue.lean ====
/-
  The result array after the whole run, as a function of the arguments.

  The run passes four boundaries: the three host operations before the first launch (the mask converted to reals and
  laid out as a column, the first bias laid out as a row), the first launch, one host operation (the second bias as a
  row), the second launch. Each launch leaves in its output the layer of the arrays it finds (whatever they are), and
  every other array is carried across unchanged, so reading the boundaries back to the launch memory gives

      result = layer adj (layer adj x W0 (row b0) (column mask)) W1 (row b1) (column mask).
-/
import proofs.«143548_g79293686219349_cont_9to1_m_1102_3_alg».proof.Proof.Gen.KernelIdeal.Frame
import proofs.«143548_g79293686219349_cont_9to1_m_1102_3_alg».proof.Proof.RegionValue
import proofs.«143548_g79293686219349_cont_9to1_m_1102_3_alg».proof.Proof.GraphLayer
import Idealize.ShloMosaic.Lib.StableHlo.Run

set_option maxRecDepth 16384

noncomputable section

namespace Cert.KernelIdeal.Result

open Cert.KernelIdeal Cert.KernelIdeal.Gen Cert.KernelIdeal.Region Cert.GraphLayer
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The node mask as a column of reals: each flag converted, laid out as [10000, 1]. -/
abbrev maskCol (c : Dev nD) : SCol.Idx → EReal :=
  broadcastInDim S10000x1 ![0] bcast_S10000_S10000x1_0 (uitofp (F := Ideal) .f32 (m ((c.tc : Thread nD τ).loc main_arg2)))
/-- The first layer's bias as a [1, 128] row. -/
abbrev biasRow0 (c : Dev nD) : SRow.Idx → EReal :=
  broadcastInDim S1x128 ![1] bcast_S128_S1x128_1 (m ((c.tc : Thread nD τ).loc main_arg4))
/-- The second layer's bias as a [1, 128] row. -/
abbrev biasRow1 (c : Dev nD) : SRow.Idx → EReal :=
  broadcastInDim S1x128 ![1] bcast_S128_S1x128_1 (m ((c.tc : Thread nD τ).loc main_arg6))

/-! ## At the first launch's entry -/

theorem V1_adj (c : Dev nD) : V1 m ρ c main_arg1 = m ((c.tc : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide)))
theorem V1_feat (c : Dev nD) : V1 m ρ c main_arg0 = m ((c.tc : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide)))
theorem V1_weight (c : Dev nD) : V1 m ρ c main_arg3 = m ((c.tc : Thread nD τ).loc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide)))
theorem V1_bias2 (c : Dev nD) : V1 m ρ c main_arg6 = m ((c.tc : Thread nD τ).loc main_arg6) :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide)))
theorem V1_bias (c : Dev nD) : V1 m ρ c main_v2 = biasRow0 m c := by
  show StableHlo.after hostOps0 (W0 m ρ c) (Proc.devRef .tc main_v2) = _
  after_results
theorem V1_mask (c : Dev nD) : V1 m ρ c main_v1 = maskCol m c := by
  show StableHlo.after hostOps0 (W0 m ρ c) (Proc.devRef .tc main_v1) = _
  after_results

/-! ## After the first launch -/

/-- The first launch's output: one layer of the arguments. -/
theorem V2_hidden (c : Dev nD) : V2 m ρ c main_v3
    = layer (m ((c.tc : Thread nD τ).loc main_arg1)) (m ((c.tc : Thread nD τ).loc main_arg0)) (m ((c.tc : Thread nD τ).loc main_arg3)) (biasRow0 m c) (maskCol m c) := by
  refine (W2_arr m ρ c 5).trans ((final0 (V1 m ρ) c).trans ?_)
  rw [V1_adj, V1_feat, V1_weight, V1_bias, V1_mask]
/-- The mask column is an input of the first launch: carried across. -/
theorem V2_mask (c : Dev nD) : V2 m ρ c main_v1 = maskCol m c :=
  ((W2_arr m ρ c 4).trans (((dat0 (V1 m ρ) c).arrAt_in 4 rfl _).trans (A_eq0 (V1 m ρ) c 4))).trans (V1_mask m ρ c)
/-- The second bias is no array of the first launch: carried across. -/
theorem V2_bias2 (c : Dev nD) : V2 m ρ c main_arg6 = m ((c.tc : Thread nD τ).loc main_arg6) :=
  (W2_of_ne m ρ c main_arg6 (by decide)).trans (V1_bias2 m ρ c)

/-! ## At the second launch's entry -/

theorem V3_hidden (c : Dev nD) : V3 m ρ c main_v3
    = layer (m ((c.tc : Thread nD τ).loc main_arg1)) (m ((c.tc : Thread nD τ).loc main_arg0)) (m ((c.tc : Thread nD τ).loc main_arg3)) (biasRow0 m c) (maskCol m c) :=
  (StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide)))).trans (V2_hidden m ρ c)
theorem V3_mask (c : Dev nD) : V3 m ρ c main_v1 = maskCol m c :=
  (StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide)))).trans (V2_mask m ρ c)
theorem V3_bias (c : Dev nD) : V3 m ρ c main_v4 = biasRow1 m c := by
  have e : V3 m ρ c main_v4 = broadcastInDim S1x128 ![1] bcast_S128_S1x128_1 (V2 m ρ c main_arg6) := by
    show StableHlo.after hostOps1 (W2 m ρ c) (Proc.devRef .tc main_v4) = _
    after_results
  rw [e, V2_bias2]
/-- The adjacency and the second weight are inputs of the second launch, so its exit contents hold them as its entry
    did, and the generated read-back of an argument from the exit gives the launch memory. -/
theorem V3_adj (c : Dev nD) : V3 m ρ c main_arg1 = m ((c.tc : Thread nD τ).loc main_arg1) :=
  ((W4_arr m ρ c 0).trans (((dat1 (V3 m ρ) c).arrAt_in 0 rfl _).trans (A_eq1 (V3 m ρ) c 0))).symm.trans (W4_main_arg1 m ρ c)
theorem V3_weight (c : Dev nD) : V3 m ρ c main_arg5 = m ((c.tc : Thread nD τ).loc main_arg5) :=
  ((W4_arr m ρ c 2).trans (((dat1 (V3 m ρ) c).arrAt_in 2 rfl _).trans (A_eq1 (V3 m ρ) c 2))).symm.trans (W4_main_arg5 m ρ c)

/-! ## The result -/

/-- The result array after the second launch: the layer of the layer. -/
theorem result_eq (c : Dev nD) : V4 m ρ c main_v5
    = layer (m ((c.tc : Thread nD τ).loc main_arg1))
        (layer (m ((c.tc : Thread nD τ).loc main_arg1)) (m ((c.tc : Thread nD τ).loc main_arg0)) (m ((c.tc : Thread nD τ).loc main_arg3)) (biasRow0 m c) (maskCol m c))
        (m ((c.tc : Thread nD τ).loc main_arg5)) (biasRow1 m c) (maskCol m c) := by
  refine (W4_arr m ρ c 5).trans ((final1 (V3 m ρ) c).trans ?_)
  rw [V3_adj, V3_hidden, V3_weight, V3_bias, V3_mask]

end Cert.KernelIdeal.Result

end
-- ==== Proof.ReferenceValue.lean ====
/-
  The reference, read index by index: it is the layer of the layer.

  The reference computes, twice over, the whole-array product of the adjacency with the features, the product of that
  with a weight, the bias row spread over all rows added, the mask column spread over all columns multiplied in, and the
  maximum with zero. Read at node p, output feature q, each of the two rounds is exactly the layer's value there: the
  products on the host are the plain sums over the contracted axis, in the same grouping (aggregate first, then
  transform), and the two spreads read the bias at (0, q) and the mask at (p, 0).
-/
import proofs.«143548_g79293686219349_cont_9to1_m_1102_3_alg».proof.Proof.Gen.ReferenceIdeal.Read
import proofs.«143548_g79293686219349_cont_9to1_m_1102_3_alg».proof.Proof.GraphLayer
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.GraphLayer
open Idealize.ShloMosaic Idealize.ShloMosaic.ValueIdx

variable (x0 : (⟨S10000x128, .f32⟩ : BufTy).Contents (Elt Ideal)) (x1 : (⟨S10000x10000, .f32⟩ : BufTy).Contents (Elt Ideal))
  (x2 : (⟨S10000, .i1⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The first round: the rectified, masked, biased transform of the aggregated features is the layer of the arguments. -/
theorem first_round :
    val_main_v9 (F := Ideal) x0 x1 x2 x3 x4 = layer x1 x0 x3 (val_main_v4 (F := Ideal) x4) (val_main_v1 (F := Ideal) x2) := by
  funext i
  obtain ⟨p, q, rfl⟩ : ∃ (p : Fin 10000) (q : Fin 128), i = ix2 p q := ⟨i 0, i 1, eq_ix2 i⟩
  rw [layer_ix2, val_main_v9_apply, val_main_v8_apply, val_main_v6_apply, val_main_v3_apply, val_main_v5_apply,
    val_main_v7_apply, val_main_call0_v0_apply, val_main_call0_cst_apply]
  simp only [val_main_v2_apply]
  unfold layerAt agg
  have e1 : ∀ (j : Fin 128) (k : Fin 10000), lidx_main_v2 (lidx_main_v3 (ix2 p q) j) k = ix2 p k := fun j k =>
    funext fun a => Fin.ext (by match a with | ⟨0, _⟩ => rfl | ⟨1, _⟩ => rfl)
  have e2 : ∀ (j : Fin 128) (k : Fin 10000), ridx_main_v2 (lidx_main_v3 (ix2 p q) j) k = ix2 k j := fun j k =>
    funext fun a => Fin.ext (by match a with | ⟨0, _⟩ => rfl | ⟨1, _⟩ => rfl)
  have e3 : ∀ j : Fin 128, ridx_main_v3 (ix2 p q) j = ix2 j q := fun j =>
    funext fun a => Fin.ext (by match a with | ⟨0, _⟩ => rfl | ⟨1, _⟩ => rfl)
  have e4 : idx_main_v5 (ix2 p q) = ix2 (0 : Fin 1) q :=
    funext fun a => Fin.ext (by match a with | ⟨0, _⟩ => rfl | ⟨1, _⟩ => rfl)
  have e5 : idx_main_v7 (ix2 p q) = ix2 p (0 : Fin 1) :=
    funext fun a => Fin.ext (by match a with | ⟨0, _⟩ => rfl | ⟨1, _⟩ => rfl)
  simp only [e1, e2, e3, e4, e5, Ideal.maximumf_def, Ideal.mulf_def, Ideal.addf_def, Ideal.ofBits_def, Ideal.ofBits_zero_f32]

/-- The second round: the same, of the first round's result and the second weight and bias. -/
theorem second_round :
    val_main_v17 (F := Ideal) x0 x1 x2 x3 x4 x5 x6
      = layer x1 (val_main_v9 (F := Ideal) x0 x1 x2 x3 x4) x5 (val_main_v12 (F := Ideal) x6) (val_main_v1 (F := Ideal) x2) := by
  funext i
  obtain ⟨p, q, rfl⟩ : ∃ (p : Fin 10000) (q : Fin 128), i = ix2 p q := ⟨i 0, i 1, eq_ix2 i⟩
  rw [layer_ix2, val_main_v17_apply, val_main_v16_apply, val_main_v14_apply, val_main_v11_apply, val_main_v13_apply,
    val_main_v15_apply, val_main_call1_v0_apply, val_main_call1_cst_apply]
  simp only [val_main_v10_apply]
  unfold layerAt agg
  have e1 : ∀ (j : Fin 128) (k : Fin 10000), lidx_main_v10 (lidx_main_v11 (ix2 p q) j) k = ix2 p k := fun j k =>
    funext fun a => Fin.ext (by match a with | ⟨0, _⟩ => rfl | ⟨1, _⟩ => rfl)
  have e2 : ∀ (j : Fin 128) (k : Fin 10000), ridx_main_v10 (lidx_main_v11 (ix2 p q) j) k = ix2 k j := fun j k =>
    funext fun a => Fin.ext (by match a with | ⟨0, _⟩ => rfl | ⟨1, _⟩ => rfl)
  have e3 : ∀ j : Fin 128, ridx_main_v11 (ix2 p q) j = ix2 j q := fun j =>
    funext fun a => Fin.ext (by match a with | ⟨0, _⟩ => rfl | ⟨1, _⟩ => rfl)
  have e4 : idx_main_v13 (ix2 p q) = ix2 (0 : Fin 1) q :=
    funext fun a => Fin.ext (by match a with | ⟨0, _⟩ => rfl | ⟨1, _⟩ => rfl)
  have e5 : idx_main_v15 (ix2 p q) = ix2 p (0 : Fin 1) :=
    funext fun a => Fin.ext (by match a with | ⟨0, _⟩ => rfl | ⟨1, _⟩ => rfl)
  simp only [e1, e2, e3, e4, e5, Ideal.maximumf_def, Ideal.mulf_def, Ideal.addf_def, Ideal.ofBits_def, Ideal.ofBits_zero_f32]

/-- The reference's result: the layer of the layer of the arguments. -/
theorem result_eq :
    val_main_v17 (F := Ideal) x0 x1 x2 x3 x4 x5 x6
      = layer x1 (layer x1 x0 x3 (val_main_v4 (F := Ideal) x4) (val_main_v1 (F := Ideal) x2)) x5
          (val_main_v12 (F := Ideal) x6) (val_main_v1 (F := Ideal) x2) := by
  rw [second_round, first_round]

end Cert.ReferenceIdeal.RefValue

end
-- ==== Proof.lean ====
/-
  Two dense graph-convolution layers with a rectifier, run as two gridded launches, against the same two layers
  written with whole-array operations: equal results over the extended reals.

  One layer maps node features X : [10000, 128] to

      layer A X W b μ [p, q]  =  max ( ( Σ_j (Σ_k A[p,k] · X[k,j]) · W[j,q]  +  b[q] ) · μ[p] ,  0 ),

  A the [10000, 10000] adjacency, W a [128, 128] weight, b a bias, μ the node mask as reals. Both programs compute
  layer A (layer A x W0 b0 μ) W1 b1 μ.

  The launches' side. A launch walks 25 row stripes of 400 nodes. At a stripe the body multiplies the adjacency's
  stripe by the whole feature array and the product by the weight (both products accumulate from zero, so each entry is
  the plain sum over the contracted axis; narrowing the operands to bf16 first is the identity on the extended reals),
  adds the bias row, scales each row by its mask entry and takes the maximum with zero: its stored entry (r, q) is the
  layer's entry (400 t + r, q) of the arrays the launch found (Proof/BlockValue.lean, Proof/RegionValue.lean). The 25
  stripes tile the rows, so a launch leaves the layer of its entry arrays in its output. Between the boundaries of the
  run every other array is carried unchanged and the host operations lay the mask out as a column and each bias as a row,
  so the result is the layer of the layer of the arguments (Proof/ResultValue.lean, over the run of
  Proof/LaunchResult.lean).

  The whole-array side. Each of its two rounds — product, product, bias spread over the rows, mask spread over the
  columns, maximum with a zero splat — read at (p, q) is the same expression: the products are the same sums in the same
  grouping, the spreads read the bias at (0, q) and the mask at (p, 0) (Proof/ReferenceValue.lean).

  No sum is regrouped and no factor is moved across a sum: the two sides are one expression entry by entry, so the
  equality holds at every extended-real input and the finiteness of the inputs is never used. The two programs are the
  same text at both instances (no rewrite was applied), so the idealization claim is trivial; the three frame claims
  are the generated runs.
-/
import proofs.«143548_g79293686219349_cont_9to1_m_1102_3_alg».proof.Defs
import proofs.«143548_g79293686219349_cont_9to1_m_1102_3_alg».proof.Proof.Gen.Kernel
import proofs.«143548_g79293686219349_cont_9to1_m_1102_3_alg».proof.Proof.Gen.Kernel.Frame
import proofs.«143548_g79293686219349_cont_9to1_m_1102_3_alg».proof.Proof.Gen.KernelIdeal
import proofs.«143548_g79293686219349_cont_9to1_m_1102_3_alg».proof.Proof.Gen.KernelIdeal.Frame
import proofs.«143548_g79293686219349_cont_9to1_m_1102_3_alg».proof.Proof.Gen.ReferenceIdeal
import proofs.«143548_g79293686219349_cont_9to1_m_1102_3_alg».proof.Proof.Gen.Pre_finite_inputs
import proofs.«143548_g79293686219349_cont_9to1_m_1102_3_alg».proof.Proof.Gen.ReferenceIdeal.Run
import proofs.«143548_g79293686219349_cont_9to1_m_1102_3_alg».proof.Proof.Gen.ReferenceIdeal.Read
import proofs.«143548_g79293686219349_cont_9to1_m_1102_3_alg».proof.Proof.GraphLayer
import proofs.«143548_g79293686219349_cont_9to1_m_1102_3_alg».proof.Proof.LaunchResult
import proofs.«143548_g79293686219349_cont_9to1_m_1102_3_alg».proof.Proof.ResultValue
import proofs.«143548_g79293686219349_cont_9to1_m_1102_3_alg».proof.Proof.ReferenceValue
import Idealize.ShloMosaic.Adequacy
import Idealize.ShloMosaic.Init

noncomputable section

namespace Cert.Proof

open Idealize.ShloMosaic Idealize.ShloMosaic.TcCoe Idealize.SL.Sem Cert.GraphLayer

/-- The word-level program runs and leaves its arguments as launched. -/
theorem frame_kernel : Cert.frame_Kernel := fun m ρ _ => Cert.Kernel.Gen.frame m ρ

/-- So does the same program read over the extended reals. -/
theorem frame_kernel_ideal : Cert.frame_KernelIdeal := fun m ρ _ => Cert.KernelIdeal.Gen.frame m ρ

/-- The whole-array program runs and leaves its arguments as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten between the two readings of the launches' program. -/
theorem preserves : Cert.preserves_Kernel_KernelIdeal := trivial

/-- Both programs end with the layer of the layer of the arguments in their result. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg1))
      (layer (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (Cert.KernelIdeal.Result.biasRow0 m c) (Cert.KernelIdeal.Result.maskCol m c))
      (m ((c.tc : Thread Cert.KernelIdeal.nD Cert.KernelIdeal.τ).loc Cert.KernelIdeal.main_arg5))
      (Cert.KernelIdeal.Result.biasRow1 m c) (Cert.KernelIdeal.Result.maskCol m c), ?_, ?_⟩
  · exact (θ_run Cert.KernelIdeal.defs _ _).mono
      (fun r h c => ⟨(h c).1.trans (Cert.KernelIdeal.Result.result_eq m ρ c), (h c).2⟩)
      (Cert.KernelIdeal.Launch.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v17_eq, Cert.ReferenceIdeal.RefValue.result_eq, h0, h1, h2, h3, h4, h5, h6]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
